-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S256 : Shape := ⟨1, ![256]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S64x256x56x56 .f32) (main_arg1 : FVec F S256 .f32) (main_arg2 : FVec F S256 .f32) (main_arg3 : FVec F S256 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S64x256x56x56 : Shape := ⟨4, ![64, 256, 56, 56]⟩
abbrev S256 : Shape := ⟨1, ![256]⟩
abbrev S64x56x56x256 : Shape := ⟨4, ![64, 56, 56, 256]⟩
abbrev S1x256 : Shape := ⟨2, ![1, 256]⟩
abbrev S1x56x56x256 : Shape := ⟨4, ![1, 56, 56, 256]⟩
abbrev S1 : Shape := ⟨1, ![1]⟩
abbrev S1x1 : Shape := ⟨2, ![1, 1]⟩
abbrev S1x1x1x256 : Shape := ⟨4, ![1, 1, 1, 256]⟩

abbrev nBuf : Space → Nat
  | .hbm => 10
  | .vmem => 7
  | .smem => 0
  | _ => 0

abbrev bufTy : (tb : Table) → Fin (tcTables nBuf tb) → BufTy
  | .hbm, ⟨0, _⟩ => ⟨S64x256x56x56, .f32⟩
  | .hbm, ⟨1, _⟩ => ⟨S256, .f32⟩
  | .hbm, ⟨2, _⟩ => ⟨S256, .f32⟩
  | .hbm, ⟨3, _⟩ => ⟨S256, .f32⟩
  | .hbm, ⟨4, _⟩ => ⟨S64x56x56x256, .f32⟩
  | .hbm, ⟨5, _⟩ => ⟨S1x256, .f32⟩
  | .hbm, ⟨6, _⟩ => ⟨S1x256, .f32⟩
  | .hbm, ⟨7, _⟩ => ⟨S1x256, .f32⟩
  | .hbm, ⟨8, _⟩ => ⟨S64x56x56x256, .f32⟩
  | .hbm, ⟨9, _⟩ => ⟨S64x256x56x56, .f32⟩
  | .local _ .vmem, ⟨0, _⟩ => ⟨S1x56x56x256, .f32⟩
  | .local _ .vmem, ⟨1, _⟩ => ⟨S1x56x56x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x56x56x256, .f32⟩
  | .local _ .vmem, ⟨6, _⟩ => ⟨S1x56x56x256, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x56x56x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x56x56x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S64x256x56x56_S64x56x56x256_0_2_3_1 : S64x256x56x56.Transposes [0, 2, 3, 1] S64x56x56x256
  shapeCasts_S256_S1x256 : S256.ShapeCasts S1x256
  inb_S1x56x56x256_S1x56x56x256_0_0_0_0 : ∀ a, (![0, 0, 0, 0] : Fin 4 → Nat) a + S1x56x56x256.size a ≤ S1x56x56x256.size a
  h_S1x56x56x256 : 0 < S1x56x56x256.numel
  shapeCasts_S1x56x56x256_S1x56x56x256 : S1x56x56x256.ShapeCasts S1x56x56x256
  reduces_S1x56x56x256_S1x256 : S1x56x56x256.Reduces [1, 2] S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S1x256_S1 : S1x256.Reduces [1] S1
  shapeCasts_S1_S1x1 : S1.ShapeCasts S1x1
  broadcasts_S1x1_S1x256 : S1x1.Broadcasts S1x256
  shapeCasts_S1x256_S1x1x1x256 : S1x256.ShapeCasts S1x1x1x256
  broadcasts_S1x1x1x256_S1x56x56x256 : S1x1x1x256.Broadcasts S1x56x56x256
  transposes_S64x56x56x256_S64x256x56x56_0_3_1_2 : S64x56x56x256.Transposes [0, 3, 1, 2] S64x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x56x56x256.size a ≤ S64x56x56x256.size a
  hwx0_0 : ∀ i : grid0.Coords, EltTy.bits .f32 = 32 ∨ (Rect.block (s := S64x56x56x256) S1x56x56x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x56x56x256.size a ≤ S64x56x56x256.size a
  hwx0_4 : ∀ i : grid0.Coords, EltTy.bits .f32 = 32 ∨ (Rect.block (s := S64x56x56x256) S1x56x56x256.size (cc0_transform_4 i) (hinb0_4 i)).WholeWords (EltTy.packing .f32)

variable [Facts₀]

abbrev win0_0 : Pipeline.Window sig grid0 :=
  Pipeline.Window.ofSpec (Memref.whole main_v0) S1x56x56x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x56x56x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S256 : Shape := ⟨1, ![256]⟩
abbrev S_ : Shape := ⟨0, ![]⟩
abbrev S64x256 : Shape := ⟨2, ![64, 256]⟩
abbrev S1x256 : Shape := ⟨2, ![1, 256]⟩
abbrev S64 : Shape := ⟨1, ![64]⟩
abbrev S64x1 : Shape := ⟨2, ![64, 1]⟩
abbrev S64x256x1x1 : Shape := ⟨4, ![64, 256, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S256, .f32⟩
  | .hbm, ⟨2, _⟩ => ⟨S256, .f32⟩
  | .hbm, ⟨3, _⟩ => ⟨S256, .f32⟩
  | .hbm, ⟨4, _⟩ => ⟨S64x256x56x56, .f32⟩
  | .hbm, ⟨5, _⟩ => ⟨S_, .f32⟩
  | .hbm, ⟨6, _⟩ => ⟨S64x256, .f32⟩
  | .hbm, ⟨7, _⟩ => ⟨S_, .f32⟩
  | .hbm, ⟨8, _⟩ => ⟨S64x256, .f32⟩
  | .hbm, ⟨9, _⟩ => ⟨S64x256, .f32⟩
  | .hbm, ⟨10, _⟩ => ⟨S64x256, .f32⟩
  | .hbm, ⟨11, _⟩ => ⟨S1x256, .f32⟩
  | .hbm, ⟨12, _⟩ => ⟨S64x256, .f32⟩
  | .hbm, ⟨13, _⟩ => ⟨S64x256, .f32⟩
  | .hbm, ⟨14, _⟩ => ⟨S64x256, .f32⟩
  | .hbm, ⟨15, _⟩ => ⟨S_, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S1x256, .f32⟩
  | .hbm, ⟨25, _⟩ => ⟨S64x256, .f32⟩
  | .hbm, ⟨26, _⟩ => ⟨S64x256, .f32⟩
  | .hbm, ⟨27, _⟩ => ⟨S64x1, .f32⟩
  | .hbm, ⟨28, _⟩ => ⟨S64x256, .f32⟩
  | .hbm, ⟨29, _⟩ => ⟨S64x256, .f32⟩
  | .hbm, ⟨30, _⟩ => ⟨S1x256, .f32⟩
  | .hbm, ⟨31, _⟩ => ⟨S64x256, .f32⟩
  | .hbm, ⟨32, _⟩ => ⟨S64x256, .f32⟩
  | .hbm, ⟨33, _⟩ => ⟨S64x256, .f32⟩
  | .hbm, ⟨34, _⟩ => ⟨S_, .f32⟩
  | .hbm, ⟨35, _⟩ => ⟨S64x256, .f32⟩
  | .hbm, ⟨36, _⟩ => ⟨S64x256, .f32⟩
  | .hbm, ⟨37, _⟩ => ⟨S64x256x1x1, .f32⟩
  | .hbm, ⟨38, _⟩ => ⟨S64x256x56x56, .f32⟩
  | .hbm, ⟨39, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  reducesTo_S64x256x56x56_S64x256_d2_3 : S64x256x56x56.ReducesTo [2, 3] S64x256
  h_S_ : 0 < S_.numel
  bcast_S_S64x256 : S_.BroadcastsInDim S64x256 (![] : Fin 0 → Fin S64x256.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  reducesTo_S64x256_S64_d1 : S64x256.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S64x256_S64x256x1x1_0_1 : S64x256.BroadcastsInDim S64x256x1x1 (![0, 1] : Fin 2 → Fin S64x256x1x1.rank)
  bcast_S64x256x1x1_S64x256x56x56_0_1_2_3 : S64x256x1x1.BroadcastsInDim S64x256x56x56 (![0, 1, 2, 3] : Fin 4 → Fin S64x256x56x56.rank)

variable [Facts₀]

class Facts : Prop extends Facts₀ where

variable [Facts]
-- ==== Proof.LibPlaneSum.lean ====
/-
  Float add-reductions over TWO axes of a rank-4 array, read at an index as a sum over the pairs of reduced
  coordinates, at any extents: the middle two axes (a channels-last image block summed over height and width) and the
  last two (a channels-second batch summed over height and width). The library reads a reduction over one axis, or
  over all of them; a sum over an image plane is neither. Both follow from one general fact: a sum over the indices a
  predicate selects is a sum over any type that parametrises those indices one to one.
-/
import Idealize.ShloMosaic.PureOps.Ideal
import Idealize.ShloMosaic.PureOps.Ideal.Laws
import Idealize.ShloMosaic.Lib.ValueIdx

noncomputable section

namespace Idealize.ShloMosaic.PlaneSum

open Idealize.ShloMosaic Idealize.ShloMosaic.ValueIdx

/-- If `e` maps `κ` one to one onto the indices satisfying `P`, the sum of `f` over those indices is the sum
    of `f ∘ e` over `κ`. -/
theorem sum_filter_eq_sum_param {ι κ M : Type} [Fintype ι] [Fintype κ] [AddCommMonoid M] (P : ι → Prop) [DecidablePred P]
    (e : κ → ι) (he : Function.Injective e) (hP : ∀ k, P (e k)) (hs : ∀ i, P i → ∃ k, e k = i) (f : ι → M) :
    ∑ i ∈ Finset.univ.filter P, f i = ∑ k : κ, f (e k) := by
  symm
  refine Finset.sum_bij (fun k _ => e k) (fun k _ => Finset.mem_filter.2 ⟨Finset.mem_univ _, hP k⟩)
    (fun _ _ _ _ h => he h) (fun i hi => ?_) (fun _ _ => rfl)
  obtain ⟨k, hk⟩ := hs i (Finset.mem_filter.1 hi).2
  exact ⟨k, Finset.mem_univ _, hk⟩

variable {n0 n1 n2 n3 : Nat}

/-- A `vector.multi_reduction <add>` over axes 1 and 2 of an [n0, n1, n2, n3] vector, read at (a, d) at the ideal
    values: the sum over all (b, c) of the source at (a, b, c, d). -/
theorem multiReduction_add_mid2 (src : FVec Ideal ⟨4, ![n0, n1, n2, n3]⟩ .f32)
    (h : (⟨4, ![n0, n1, n2, n3]⟩ : Shape).Reduces [1, 2] ⟨2, ![n0, n3]⟩) (acc : BitVec 32) (hφ : FKind.Formats .f32)
    (hacc : acc = FKind.add.neutral .f32 hφ) (a : Fin n0) (d : Fin n3) :
    multiReduction .add [1, 2] ⟨2, ![n0, n3]⟩ src acc h hφ hacc (ix2 a d)
      = ∑ p : Fin n1 × Fin n2, src (ix4 a p.1 p.2 d) := by
  show Ideal.reduceAdd h src (ix2 a d) = _
  unfold Ideal.reduceAdd
  refine sum_filter_eq_sum_param _ (fun p : Fin n1 × Fin n2 => (ix4 a p.1 p.2 d : (⟨4, ![n0, n1, n2, n3]⟩ : Shape).Idx)) ?_ ?_ ?_ src
  · intro p q hpq
    exact Prod.ext (congrFun hpq (1 : Fin 4)) (congrFun hpq (2 : Fin 4))
  · intro p
    funext b
    apply Fin.ext
    match b with
    | ⟨0, _⟩ => rfl
    | ⟨1, _⟩ => rfl
  · intro i hi
    refine ⟨(i 1, i 2), ?_⟩
    have h0 : (i (0 : Fin 4)).val = a.val := congrArg Fin.val (congrFun hi (0 : Fin 2))
    have h1 : (i (3 : Fin 4)).val = d.val := congrArg Fin.val (congrFun hi (1 : Fin 2))
    funext x
    apply Fin.ext
    match x with
    | ⟨0, _⟩ => exact h0.symm
    | ⟨1, _⟩ => rfl
    | ⟨2, _⟩ => rfl
    | ⟨3, _⟩ => exact h1.symm

/-- The host's float `stablehlo.reduce` with `add` over axes 2 and 3 of an [n0, n1, n2, n3] array, read at (a, b)
    at the ideal values: the initial value plus the sum over all (c, d) of the operand at (a, b, c, d). -/
theorem hostReduceAdd_last2 (x : (⟨4, ![n0, n1, n2, n3]⟩ : Shape).Idx → EReal) (init : EReal)
    (h : (⟨4, ![n0, n1, n2, n3]⟩ : Shape).ReducesTo [2, 3] ⟨2, ![n0, n1]⟩) (a : Fin n0) (b : Fin n1) :
    Ideal.hostReduceAdd h x init (ix2 a b) = init + ∑ p : Fin n2 × Fin n3, x (ix4 a b p.1 p.2) := by
  unfold Ideal.hostReduceAdd
  refine congrArg (init + ·) ?_
  refine sum_filter_eq_sum_param _ (fun p : Fin n2 × Fin n3 => (ix4 a b p.1 p.2 : (⟨4, ![n0, n1, n2, n3]⟩ : Shape).Idx)) ?_ ?_ ?_ x
  · intro p q hpq
    exact Prod.ext (congrFun hpq (2 : Fin 4)) (congrFun hpq (3 : Fin 4))
  · intro p
    funext y
    apply Fin.ext
    match y with
    | ⟨0, _⟩ => rfl
    | ⟨1, _⟩ => rfl
  · intro i hi
    refine ⟨(i 2, i 3), ?_⟩
    have h0 : (i (0 : Fin 4)).val = a.val := congrArg Fin.val (congrFun hi (0 : Fin 2))
    have h1 : (i (1 : Fin 4)).val = b.val := congrArg Fin.val (congrFun hi (1 : Fin 2))
    funext y
    apply Fin.ext
    match y with
    | ⟨0, _⟩ => exact h0.symm
    | ⟨1, _⟩ => exact h1.symm
    | ⟨2, _⟩ => rfl
    | ⟨3, _⟩ => rfl

end Idealize.ShloMosaic.PlaneSum

end
-- ==== Proof.GctSpec.lean ====
/-
  The gated channel transformation of one sample, written over plain coordinates.

  A sample is a family of 256 channel planes of 56 x 56 extended reals. Each plane contributes the sum of the
  squares of its entries; channel c's embedding is sqrt (that sum + eps) times alpha c; the sample's scale is
  rsqrt (the mean over the 256 channels of the squared embeddings + eps); the gate of channel c is
  1 + tanh (embedding * gamma c * scale + beta c); every entry of plane c is multiplied by the gate of c.
  Both programs compute exactly this, one sample at a time: they differ in how the array is laid out
  (channels last against channels second) and in the order in which a plane's 3136 squares are added, and a
  finite sum in a commutative monoid does not depend on that order.

  Also here: the two plane sums the programs take, the lane sum over the spatial axes of a channels-last block and
  the host's sum over the spatial axes of the channels-second batch, each read at an index as the sum over the
  56 x 56 pairs of spatial coordinates (the general two-axis readings at these extents).
-/
import Idealize.ShloMosaic.PureOps.Ideal
import Idealize.ShloMosaic.PureOps.Ideal.Laws
import Idealize.ShloMosaic.Lib.ValueIdx
import Idealize.ShloMosaic.Lib.IdealHost
import proofs.«121666_g25056839205320_feedfinal_431_6_alg».proof.Proof.LibPlaneSum

noncomputable section

namespace Cert.Gct

open Idealize.ShloMosaic Idealize.ShloMosaic.ValueIdx

/-! ## The specification -/

/-- The stabiliser, the f32 nearest to 1e-5, as the extended real its word denotes. -/
abbrev eps : EReal := Ideal.ofBits .f32 0x3727C5AC#32
/-- The number of channels, 256, as the word both programs divide by. -/
abbrev nCh : EReal := Ideal.ofBits .f32 0x43800000#32
/-- The word of 1. -/
abbrev one : EReal := Ideal.ofBits .f32 0x3F800000#32

/-- The sum of the squares of a plane's entries. -/
def planeSq (u : Fin 56 → Fin 56 → EReal) : EReal := ∑ p : Fin 56 × Fin 56, u p.1 p.2 * u p.1 p.2

/-- Channel c's embedding: the plane's root sum of squares, scaled by alpha. -/
def embed (xs : Fin 256 → Fin 56 → Fin 56 → EReal) (a : Fin 256 → EReal) (c : Fin 256) : EReal :=
  Ideal.sqrt (planeSq (xs c) + eps) * a c

/-- The sample's scale: the reciprocal root of the mean squared embedding. -/
def invNorm (xs : Fin 256 → Fin 56 → Fin 56 → EReal) (a : Fin 256 → EReal) : EReal :=
  Ideal.rsqrt (Ideal.div (∑ c : Fin 256, embed xs a c * embed xs a c) nCh + eps)

/-- Channel c's gate. -/
def gate (xs : Fin 256 → Fin 56 → Fin 56 → EReal) (a g b : Fin 256 → EReal) (c : Fin 256) : EReal :=
  one + Ideal.tanh (embed xs a c * g c * invNorm xs a + b c)

/-! ## The plane sum in the channels-last block -/

/-- A block of one sample, channels last. -/
abbrev SBlk : Shape := ⟨4, ![1, 56, 56, 256]⟩
/-- One row of channel values. -/
abbrev SRow : Shape := ⟨2, ![1, 256]⟩

/-- The lane sum over the two spatial axes of a channels-last block, at channel `c`, is the sum over the plane. -/
theorem laneSum_plane (src : FVec Ideal SBlk .f32) (h : SBlk.Reduces [1, 2] SRow) (hφ : FKind.Formats .f32)
    (hacc : (0x00000000#32 : BitVec 32) = FKind.add.neutral .f32 hφ) (z : Fin 1) (c : Fin 256) :
    multiReduction .add [1, 2] SRow src 0x00000000#32 h hφ hacc (ix2 z c)
      = ∑ p : Fin 56 × Fin 56, src (ix4 z p.1 p.2 c) :=
  PlaneSum.multiReduction_add_mid2 src h 0x00000000#32 hφ hacc z c

/-! ## The plane sum in the channels-second array -/

/-- The whole batch, channels second. -/
abbrev SArr : Shape := ⟨4, ![64, 256, 56, 56]⟩
/-- One value per sample and channel. -/
abbrev SNC : Shape := ⟨2, ![64, 256]⟩

/-- The host's sum over the two spatial axes of the channels-second array, at sample `n` and channel `c`, is the
    initial value plus the sum over the plane. -/
theorem hostSum_plane (x : SArr.Idx → EReal) (init : EReal) (h : SArr.ReducesTo [2, 3] SNC) (n : Fin 64) (c : Fin 256) :
    Ideal.hostReduceAdd h x init (ix2 n c) = init + ∑ p : Fin 56 × Fin 56, x (ix4 n c p.1 p.2) :=
  PlaneSum.hostReduceAdd_last2 x init h n c

end Cert.Gct

end
-- ==== Proof.RefValue.lean ====
/-
  The reference, read against the specification.

  The reference keeps the batch channels second, [64, 256, 56, 56]. Its stages are read one at a time at an index:
  the sum of squares over the two spatial axes at (n, c) is the plane sum of sample n's channel c; the embedding,
  the per-sample scale and the gate follow the specification's formulas term by term, the host's square root,
  reciprocal root, hyperbolic tangent and quotient being the ideal ones; the result at (n, c, h, w) is the entry
  times the gate of (n, c).
-/
import proofs.«121666_g25056839205320_feedfinal_431_6_alg».proof.Proof.Gen.ReferenceIdeal.Run
import proofs.«121666_g25056839205320_feedfinal_431_6_alg».proof.Proof.Gen.ReferenceIdeal.Read
import proofs.«121666_g25056839205320_feedfinal_431_6_alg».proof.Proof.GctSpec

noncomputable section

namespace Cert.ReferenceIdeal.RefValue

open Cert.ReferenceIdeal Cert.ReferenceIdeal.Gen Cert.ReferenceIdeal.Read
open Idealize.ShloMosaic Idealize.ShloMosaic.ValueIdx Cert.Gct

/-- The batch as the reference holds it. -/
abbrev Arr : Type := (⟨S64x256x56x56, .f32⟩ : BufTy).Contents (Elt Ideal)
/-- A per-channel parameter vector. -/
abbrev Par : Type := (⟨S256, .f32⟩ : BufTy).Contents (Elt Ideal)

/-- Sample `n` of the batch as its 256 channel planes. -/
abbrev planes (X : Arr) (n : Fin 64) : Fin 256 → Fin 56 → Fin 56 → EReal := fun c h w => X (ix4 n c h w)
/-- A parameter vector by channel. -/
abbrev par (A : Par) : Fin 256 → EReal := fun c => A (ix1 c)

/-- The sum of squares over the spatial axes at (n, c) is the plane sum: the host's initial value is the zero word. -/
theorem sumsq_at (X : Arr) (n : Fin 64) (c : Fin 256) :
    val_main_v1 (F := Ideal) X (ix2 n c) = planeSq (planes X n c) := by
  unfold val_main_v1
  rw [hostReduceAdd_apply, hostSum_plane]
  simp only [val_main_cst_apply, Ideal.ofBits_def, Ideal.ofBits_zero_f32, zero_add, val_main_v0_apply, Ideal.mulf_def]
  rfl

/-- The embedding at (n, c). -/
theorem embed_at (X : Arr) (A : Par) (n : Fin 64) (c : Fin 256) :
    val_main_v7 (F := Ideal) X A (ix2 n c) = embed (planes X n) (par A) c := by
  rw [val_main_v7_apply, val_main_v4_apply, val_main_v3_apply, sumsq_at, val_main_v2_apply, val_main_cst_0_apply,
    val_main_v6_apply, val_main_v5_apply]
  have e : idx_main_v5 (idx_main_v6 (ix2 n c)) = ix1 c :=
    funext fun a => Fin.ext (by match a with | ⟨0, _⟩ => rfl)
  rw [e]
  simp only [Ideal.mulf_def, Ideal.addf_def, Ideal.hostUnary_sqrt_def, Ideal.ofBits_def]
  rfl

/-- The scale of sample n: the mean over the channels is the channel sum divided by the word of 256. -/
theorem scale_at (X : Arr) (A : Par) (n : Fin 64) :
    val_main_v14 (F := Ideal) X A (ix1 n) = invNorm (planes X n) (par A) := by
  rw [val_main_v14_apply, val_main_v13_apply, val_main_v11_apply, val_main_v9_apply, val_main_v10_apply,
    val_main_cst_2_apply, val_main_v12_apply, val_main_cst_3_apply, val_main_cst_1_apply]
  have e : ∀ k : Fin 256, idx_main_v9 (ix1 n) k = ix2 n k := fun k =>
    funext fun a => Fin.ext (by match a with | ⟨0, _⟩ => rfl | ⟨1, _⟩ => rfl)
  simp only [e, val_main_v8_apply, embed_at, Ideal.mulf_def, Ideal.addf_def, Ideal.hostDivf_def,
    Ideal.hostUnary_rsqrt_def, Ideal.ofBits_def, Ideal.ofBits_zero_f32, zero_add]
  rfl

/-- The gate at (n, c). -/
theorem gate_at (X : Arr) (A G B : Par) (n : Fin 64) (c : Fin 256) :
    val_main_v26 (F := Ideal) X A G B (ix2 n c) = gate (planes X n) (par A) (par G) (par B) c := by
  rw [val_main_v26_apply, val_main_v25_apply, val_main_cst_4_apply, val_main_v24_apply, val_main_v23_apply,
    val_main_v20_apply, val_main_v17_apply, embed_at, val_main_v16_apply, val_main_v15_apply, val_main_v19_apply,
    val_main_v18_apply, val_main_v22_apply, val_main_v21_apply]
  have e1 : idx_main_v15 (idx_main_v16 (ix2 n c)) = ix1 c :=
    funext fun a => Fin.ext (by match a with | ⟨0, _⟩ => rfl)
  have e2 : idx_main_v18 (idx_main_v19 (ix2 n c)) = ix1 n :=
    funext fun a => Fin.ext (by match a with | ⟨0, _⟩ => rfl)
  have e3 : idx_main_v21 (idx_main_v22 (ix2 n c)) = ix1 c :=
    funext fun a => Fin.ext (by match a with | ⟨0, _⟩ => rfl)
  rw [e1, e2, e3, scale_at]
  simp only [Ideal.mulf_def, Ideal.addf_def, Ideal.hostUnary_tanh_def, Ideal.ofBits_def]
  rfl

/-- The reference's result: every entry times the gate of its sample and channel. -/
theorem result_eq (X : Arr) (A G B : Par) :
    val_main_v29 (F := Ideal) X A G B
      = fun i => X i * gate (planes X (i 0)) (par A) (par G) (par B) (i 1) := by
  funext i
  obtain ⟨n, c, h, w, rfl⟩ : ∃ (n : Fin 64) (c : Fin 256) (h : Fin 56) (w : Fin 56), i = ix4 n c h w :=
    ⟨i 0, i 1, i 2, i 3, eq_ix4 i⟩
  rw [val_main_v29_apply, val_main_v28_apply, val_main_v27_apply]
  have e : idx_main_v27 (idx_main_v28 (ix4 n c h w)) = ix2 n c :=
    funext fun a => Fin.ext (by match a with | ⟨0, _⟩ => rfl | ⟨1, _⟩ => rfl)
  rw [e, gate_at]
  simp only [Ideal.mulf_def]

end Cert.ReferenceIdeal.RefValue

end
-- ==== Proof.BlockGate.lean ====
/-
  The kernel body's arithmetic on one block, read against the specification.

  The body holds one sample channels last, [1, 56, 56, 256], and the three parameter rows as [1, 256]. Its value is
  cut here into the row of embeddings (lane sum over the two spatial axes, plus eps, square root, times alpha), the
  single cell holding the sample's scale (the row of squared embeddings summed over its 256 lanes, divided by the
  word of 256, plus eps, reciprocal root), and the row of gates; what the body stores is the block times the gate
  row, re-laid as [1, 1, 1, 256] and spread over the two spatial axes. Each piece read at an index is the
  specification's term for the sample whose plane (c) is the block at (0, ·, ·, c).
-/
import proofs.«121666_g25056839205320_feedfinal_431_6_alg».proof.Proof.Gen.KernelIdeal.Skeleton
import proofs.«121666_g25056839205320_feedfinal_431_6_alg».proof.Proof.GctSpec
import Idealize.ShloMosaic.Lib.Pipeline.Value
import Idealize.ShloMosaic.Lib.ValueIdx
import Idealize.ShloMosaic.PureOps.Ideal.Laws

noncomputable section

namespace Cert.KernelIdeal.BlockGate

open Cert.KernelIdeal Cert.KernelIdeal.Gen
open Idealize.ShloMosaic Idealize.ShloMosaic.ValueIdx Cert.Gct

variable (x0 : Vec Ideal S1x56x56x256 .f32) (x1 x2 x3 : Vec Ideal S1x256 .f32)

/-- The block as the sample's 256 channel planes. -/
abbrev blkPlanes : Fin 256 → Fin 56 → Fin 56 → EReal := fun c h w => x0 (ix4 0 h w c)
/-- A parameter row by channel. -/
abbrev rowPar (r : Vec Ideal S1x256 .f32) : Fin 256 → EReal := fun c => r (ix2 0 c)

/-! ## The pieces of the body's arithmetic -/

/-- The row of embeddings. -/
def embRow : FVec Ideal S1x256 .f32 :=
  mulf (sqrt (addf (multiReduction .add [1, 2] S1x256
      (mulf (shapeCast S1x56x56x256 x0 shapeCasts_S1x56x56x256_S1x56x56x256) (shapeCast S1x56x56x256 x0 shapeCasts_S1x56x56x256_S1x56x56x256))
      0x00000000#32 reduces_S1x56x56x256_S1x256 (.inl rfl) rfl) (broadcast S1x256 (Scalar.ofBits .f32 0x3727C5AC#32))))
    (shapeCast S1x256 x1 shapeCasts_S1x256_S1x256)

/-- The cell holding the sample's scale. -/
def scaleCell : FVec Ideal S1x1 .f32 :=
  rsqrt (addf (divf (shapeCast S1x1 (multiReduction .add [1] S1 (mulf (embRow x0 x1) (embRow x0 x1)) 0x00000000#32
      reduces_S1x256_S1 (.inl rfl) rfl) shapeCasts_S1_S1x1) (broadcast S1x1 (Scalar.ofBits .f32 0x43800000#32)))
    (broadcast S1x1 (Scalar.ofBits .f32 0x3727C5AC#32)))

/-- The row of gates. -/
def gateRow : FVec Ideal S1x256 .f32 :=
  addf (broadcast S1x256 (Scalar.ofBits .f32 0x3F800000#32))
    (tanh (addf (mulf (mulf (embRow x0 x1) (shapeCast S1x256 x2 shapeCasts_S1x256_S1x256))
      (broadcastTo S1x256 (scaleCell x0 x1) broadcasts_S1x1_S1x256)) (shapeCast S1x256 x3 shapeCasts_S1x256_S1x256)))

/-- What the body stores is the block times the gate row spread over the spatial axes. -/
theorem pay_eq : k0_pay1 (F := Ideal) x0 x1 x2 x3
    = mulf (shapeCast S1x56x56x256 x0 shapeCasts_S1x56x56x256_S1x56x56x256)
        (broadcastTo S1x56x56x256 (shapeCast S1x1x1x256 (gateRow x0 x1 x2 x3) shapeCasts_S1x256_S1x1x1x256)
          broadcasts_S1x1x1x256_S1x56x56x256) := rfl

/-! ## Each piece at an index -/

/-- The lane sum of the block's squares at channel c is the plane sum of channel c. -/
theorem sumsq_at (c : Fin 256) :
    multiReduction (F := Ideal) .add [1, 2] S1x256 (mulf x0 x0) 0x00000000#32 reduces_S1x56x56x256_S1x256 (.inl rfl) rfl (ix2 0 c)
      = planeSq (blkPlanes x0 c) :=
  (laneSum_plane (mulf x0 x0) reduces_S1x56x56x256_S1x256 (.inl rfl) rfl 0 c).trans rfl

/-- The embedding of channel c. -/
theorem embRow_at (c : Fin 256) : embRow x0 x1 (ix2 0 c) = embed (blkPlanes x0) (rowPar x1) c := by
  unfold embRow
  rw [shapeCast_self, shapeCast_self]
  show Ideal.sqrt (multiReduction (F := Ideal) .add [1, 2] S1x256 (mulf x0 x0) 0x00000000#32 reduces_S1x56x56x256_S1x256 (.inl rfl) rfl (ix2 0 c)
    + eps) * x1 (ix2 0 c) = _
  exact congrArg (fun s => Ideal.sqrt (s + eps) * x1 (ix2 0 c)) (sumsq_at x0 c)

/-- The row of squared embeddings summed over its lanes is the channel sum of the squared embeddings. -/
theorem sqsum_at :
    multiReduction (F := Ideal) .add [1] S1 (mulf (embRow x0 x1) (embRow x0 x1)) 0x00000000#32 reduces_S1x256_S1 (.inl rfl) rfl (ix1 0)
      = ∑ k : Fin 256, embed (blkPlanes x0) (rowPar x1) k * embed (blkPlanes x0) (rowPar x1) k := by
  refine (Ideal.multiReduction_add_single (mulf (embRow x0 x1) (embRow x0 x1)) 0x00000000#32 reduces_S1x256_S1 (.inl rfl) rfl (ix1 0)).trans ?_
  refine Finset.sum_congr rfl fun (k : Fin 256) _ => ?_
  have e : (reduces_S1x256_S1 : S1x256.Reduces [1] S1).lift (ix1 0) k = ix2 0 k :=
    funext fun a => Fin.ext (by match a with | ⟨0, _⟩ => rfl | ⟨1, _⟩ => rfl)
  rw [e]
  show embRow x0 x1 (ix2 0 k) * embRow x0 x1 (ix2 0 k) = _
  rw [embRow_at]

/-- The scale cell holds the sample's scale. -/
theorem scaleCell_at : scaleCell x0 x1 (ix2 0 0) = invNorm (blkPlanes x0) (rowPar x1) := by
  have hcast : shapeCast S1x1 (multiReduction (F := Ideal) .add [1] S1 (mulf (embRow x0 x1) (embRow x0 x1)) 0x00000000#32
        reduces_S1x256_S1 (.inl rfl) rfl) shapeCasts_S1_S1x1 (ix2 0 0)
      = multiReduction (F := Ideal) .add [1] S1 (mulf (embRow x0 x1) (embRow x0 x1)) 0x00000000#32 reduces_S1x256_S1 (.inl rfl) rfl (ix1 0) :=
    shapeCast_apply _ shapeCasts_S1_S1x1 (ix2 0 0) (ix1 0) (by rfl)
  unfold scaleCell invNorm
  show Ideal.rsqrt (Ideal.div (shapeCast S1x1 (multiReduction (F := Ideal) .add [1] S1 (mulf (embRow x0 x1) (embRow x0 x1)) 0x00000000#32
      reduces_S1x256_S1 (.inl rfl) rfl) shapeCasts_S1_S1x1 (ix2 0 0)) nCh + eps) = _
  exact congrArg (fun s => Ideal.rsqrt (Ideal.div s nCh + eps)) (hcast.trans (sqsum_at x0 x1))

/-- The scale cell spread over the row reads the sample's scale at every channel. -/
theorem scaleRow_at (c : Fin 256) :
    broadcastTo S1x256 (scaleCell x0 x1) broadcasts_S1x1_S1x256 (ix2 0 c) = invNorm (blkPlanes x0) (rowPar x1) :=
  (broadcastTo_apply (scaleCell x0 x1) broadcasts_S1x1_S1x256 (ix2 0 c) (ix2 0 0) (fun a => by
      match a with
      | ⟨0, _⟩ => show 0 = if (1 : Nat) = 1 then 0 else _; rw [if_pos rfl]
      | ⟨1, _⟩ => show 0 = if (1 : Nat) = 1 then 0 else _; rw [if_pos rfl])).trans (scaleCell_at x0 x1)

/-- The gate of channel c. -/
theorem gateRow_at (c : Fin 256) :
    gateRow x0 x1 x2 x3 (ix2 0 c) = gate (blkPlanes x0) (rowPar x1) (rowPar x2) (rowPar x3) c := by
  unfold gateRow
  rw [shapeCast_self, shapeCast_self]
  show one + Ideal.tanh (embRow x0 x1 (ix2 0 c) * x2 (ix2 0 c)
    * broadcastTo S1x256 (scaleCell x0 x1) broadcasts_S1x1_S1x256 (ix2 0 c) + x3 (ix2 0 c)) = _
  rw [scaleRow_at, embRow_at]
  rfl

/-- The gate row re-laid and spread over the spatial axes reads the gate of the entry's channel. -/
theorem gateBlk_at (h w : Fin 56) (c : Fin 256) :
    broadcastTo S1x56x56x256 (shapeCast S1x1x1x256 (gateRow x0 x1 x2 x3) shapeCasts_S1x256_S1x1x1x256)
        broadcasts_S1x1x1x256_S1x56x56x256 (ix4 0 h w c)
      = gate (blkPlanes x0) (rowPar x1) (rowPar x2) (rowPar x3) c :=
  ((broadcastTo_apply _ broadcasts_S1x1x1x256_S1x56x56x256 (ix4 0 h w c) (ix4 0 0 0 c) (fun a => by
      match a with
      | ⟨0, _⟩ => show 0 = if (1 : Nat) = 1 then 0 else _; rw [if_pos rfl]
      | ⟨1, _⟩ => show 0 = if (1 : Nat) = 1 then 0 else _; rw [if_pos rfl]
      | ⟨2, _⟩ => show 0 = if (1 : Nat) = 1 then 0 else _; rw [if_pos rfl]
      | ⟨3, _⟩ => show c.val = if (256 : Nat) = 1 then 0 else c.val; rw [if_neg (by decide)])).trans
    (shapeCast_apply _ shapeCasts_S1x256_S1x1x1x256 (ix4 0 0 0 c) (ix2 0 c) (by
      rw [Shape.rowMajor_val_two, Shape.rowMajor_val_four]
      show 0 * 256 + c.val = ((0 * 1 + 0) * 1 + 0) * 256 + c.val
      omega))).trans (gateRow_at x0 x1 x2 x3 c)

/-- What the body stores at (0, h, w, c): the block's entry times the gate of channel c. -/
theorem pay_at (h w : Fin 56) (c : Fin 256) :
    k0_pay1 (F := Ideal) x0 x1 x2 x3 (ix4 0 h w c)
      = x0 (ix4 0 h w c) * gate (blkPlanes x0) (rowPar x1) (rowPar x2) (rowPar x3) c := by
  rw [pay_eq, shapeCast_self]
  show x0 (ix4 0 h w c) * broadcastTo S1x56x56x256 (shapeCast S1x1x1x256 (gateRow x0 x1 x2 x3) shapeCasts_S1x256_S1x1x1x256)
      broadcasts_S1x1x1x256_S1x56x56x256 (ix4 0 h w c) = _
  rw [gateBlk_at]

end Cert.KernelIdeal.BlockGate

end
-- ==== Proof.ArrayValue.lean ====
/-
  The kernel's result array.

  The program transposes the batch to channels last, [64, 56, 56, 256], and re-lays each parameter vector as a row
  [1, 256]; the region then visits the 64 samples in order. At sample n it holds block (n, ·, ·, ·) of the
  transposed batch and the three rows, and writes back block n of its output: by the body's arithmetic, every
  entry of the sample times the gate of the entry's channel, the gate computed from that sample's planes alone.
  The 64 blocks tile the output, so after the region the output array is, index by index, the transposed batch
  times the gate of (sample, channel). The closing transpose puts the channels second again.
-/
import proofs.«121666_g25056839205320_feedfinal_431_6_alg».proof.Proof.Gen.KernelIdeal.Frame
import proofs.«121666_g25056839205320_feedfinal_431_6_alg».proof.Proof.BlockGate
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.BlockGate
open Idealize.ShloMosaic.ValueIdx Cert.Gct

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl

/-! ## The arrays the region finds -/

/-- The batch, channels last. -/
abbrev xT (c : Dev nD) : S64x56x56x256.Idx → EReal := V m c main_v0
/-- The three parameter rows. -/
abbrev aRow (c : Dev nD) : S1x256.Idx → EReal := V m c main_v1
abbrev gRow (c : Dev nD) : S1x256.Idx → EReal := V m c main_v2
abbrev bRow (c : Dev nD) : S1x256.Idx → EReal := V m c main_v3

/-- The sample that grid point t visits. -/
abbrev smp (t : Fin cfg0.N) : Fin 64 := Fin.cast N_0 t

/-- What the region leaves in its output array: each entry of the channels-last batch times the gate of its sample
    and channel. -/
def regionOut (c : Dev nD) : S64x56x56x256.Idx → EReal := fun i =>
  xT m c i * gate (fun ch h w => xT m c (ix4 (i 0) h w ch)) (rowPar (aRow m c)) (rowPar (gRow m c)) (rowPar (bRow m c)) (i 3)

/-! ## Where the blocks lie -/

/-- Point t's blocks: the batch windows at block (t, 0, 0, 0), the parameter rows at block (0, 0). -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_4.index t (0 : Fin 4) = t.val ∧ win0_4.index t (1 : Fin 4) = 0 ∧ win0_4.index t (2 : Fin 4) = 0 ∧ win0_4.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The batch block at point t is sample t of the channels-last batch. -/
theorem xblk_at (c : Dev nD) (t : Fin cfg0.N) (h w : Fin 56) (ch : Fin 256) :
    (iblk m c 0 t : Vec Ideal S1x56x56x256 .f32) (ix4 0 h w ch) = xT m c (ix4 (smp t) h w ch) := by
  obtain ⟨e0, e1, e2, e3, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 4) * 1 + 1 * 0 = t.val; omega
  | ⟨1, _⟩ => show win0_0.index t (1 : Fin 4) * 56 + 1 * h.val = h.val; omega
  | ⟨2, _⟩ => show win0_0.index t (2 : Fin 4) * 56 + 1 * w.val = w.val; omega
  | ⟨3, _⟩ => show win0_0.index t (3 : Fin 4) * 256 + 1 * ch.val = ch.val; omega

/-- Each parameter block is its whole row. -/
theorem ablk_at (c : Dev nD) (t : Fin cfg0.N) (ch : Fin 256) :
    (iblk m c 1 t : Vec Ideal S1x256 .f32) (ix2 0 ch) = aRow m c (ix2 0 ch) := by
  obtain ⟨-, -, -, -, -, -, -, -, e0, e1, -⟩ := idx_facts t
  unfold iblk
  rw [View.read_apply]
  show V m c main_v1 _ = V m c main_v1 _
  refine congrArg (V m c main_v1) (funext fun a => Fin.ext ?_)
  match a with
  | ⟨0, _⟩ => show win0_1.index t (0 : Fin 2) * 1 + 1 * 0 = 0; omega
  | ⟨1, _⟩ => show win0_1.index t (1 : Fin 2) * 256 + 1 * ch.val = ch.val; omega

theorem gblk_at (c : Dev nD) (t : Fin cfg0.N) (ch : Fin 256) :
    (iblk m c 2 t : Vec Ideal S1x256 .f32) (ix2 0 ch) = gRow m c (ix2 0 ch) := by
  obtain ⟨-, -, -, -, -, -, -, -, -, -, e0, e1, -⟩ := idx_facts t
  unfold iblk
  rw [View.read_apply]
  show V m c main_v2 _ = V m c main_v2 _
  refine congrArg (V m c main_v2) (funext fun a => Fin.ext ?_)
  match a with
  | ⟨0, _⟩ => show win0_2.index t (0 : Fin 2) * 1 + 1 * 0 = 0; omega
  | ⟨1, _⟩ => show win0_2.index t (1 : Fin 2) * 256 + 1 * ch.val = ch.val; omega

theorem bblk_at (c : Dev nD) (t : Fin cfg0.N) (ch : Fin 256) :
    (iblk m c 3 t : Vec Ideal S1x256 .f32) (ix2 0 ch) = bRow m c (ix2 0 ch) := by
  obtain ⟨-, -, -, -, -, -, -, -, -, -, -, -, e0, e1⟩ := idx_facts t
  unfold iblk
  rw [View.read_apply]
  show V m c main_v3 _ = V m c main_v3 _
  refine congrArg (V m c main_v3) (funext fun a => Fin.ext ?_)
  match a with
  | ⟨0, _⟩ => show win0_3.index t (0 : Fin 2) * 1 + 1 * 0 = 0; omega
  | ⟨1, _⟩ => show win0_3.index t (1 : Fin 2) * 256 + 1 * ch.val = ch.val; omega

/-- The block's planes are sample t's planes. -/
theorem blkPlanes_eq (c : Dev nD) (t : Fin cfg0.N) :
    blkPlanes (iblk m c 0 t) = fun ch h w => xT m c (ix4 (smp t) h w ch) :=
  funext fun ch => funext fun h => funext fun w => xblk_at m c t h w ch

theorem rowPar_a (c : Dev nD) (t : Fin cfg0.N) : rowPar (iblk m c 1 t) = rowPar (aRow m c) :=
  funext fun ch => ablk_at m c t ch
theorem rowPar_g (c : Dev nD) (t : Fin cfg0.N) : rowPar (iblk m c 2 t) = rowPar (gRow m c) :=
  funext fun ch => gblk_at m c t ch
theorem rowPar_b (c : Dev nD) (t : Fin cfg0.N) : rowPar (iblk m c 3 t) = rowPar (bRow m c) :=
  funext fun ch => bblk_at m c t ch

/-! ## What a point writes back, and the array after the region -/

/-- Point t writes back block t of `regionOut`. -/
theorem flushed_eq (c : Dev nD) (t : Fin cfg0.N) :
    (dats m 0 c).flushed 4 t = ((cfg0.win 4).blk t).view.read (Elt Ideal) (regionOut m c) := by
  show (cfg0.win 4).cut (grid0.coords t) ((dats m 0 c).after 4 t) = _
  rw [after0_4]
  unfold out0_4
  rw [View.canon_unit_zero hz4]
  simp only [View.ld_unit_zero (S := S1x56x56x256) hz4, View.ld_unit_zero (S := S1x256) hz2]
  have key : ∀ y : S1x56x56x256.Idx,
      k0_pay1 (F := Ideal) (iblk m c 0 t) (iblk m c 1 t) (iblk m c 2 t) (iblk m c 3 t) y
        = regionOut m c (((cfg0.win 4).blk t).view.emb y) := by
    intro y
    obtain ⟨z, h, w, ch, rfl⟩ : ∃ (z : Fin 1) (h w : Fin 56) (ch : Fin 256), y = ix4 z h w ch :=
      ⟨y 0, y 1, y 2, y 3, eq_ix4 y⟩
    obtain rfl : z = 0 := Subsingleton.elim _ _
    refine (pay_at (iblk m c 0 t) (iblk m c 1 t) (iblk m c 2 t) (iblk m c 3 t) h w ch).trans ?_
    rw [blkPlanes_eq m c t, rowPar_a m c t, rowPar_g m c t, rowPar_b m c t, xblk_at m c t h w ch]
    obtain ⟨-, -, -, -, e4, e5, e6, e7, -⟩ := idx_facts t
    have he : ((cfg0.win 4).blk t).view.emb (ix4 0 h w ch) = (ix4 (smp t) h w ch : S64x56x56x256.Idx) :=
      funext fun a => Fin.ext (by
        match a with
        | ⟨0, _⟩ => show win0_4.index t (0 : Fin 4) * 1 + 1 * 0 = t.val; omega
        | ⟨1, _⟩ => show win0_4.index t (1 : Fin 4) * 56 + 1 * h.val = h.val; omega
        | ⟨2, _⟩ => show win0_4.index t (2 : Fin 4) * 56 + 1 * w.val = w.val; omega
        | ⟨3, _⟩ => show win0_4.index t (3 : Fin 4) * 256 + 1 * ch.val = ch.val; omega)
    rw [he]
    rfl
  funext j
  exact key j

/-- An index lies in point t's block iff each coordinate lies in the block's range on its axis. -/
theorem mem_blk (t : Fin cfg0.N) (i : S64x56x56x256.Idx) :
    i ∈ ((cfg0.win 4).blk t).view.set ↔ ∀ a : Fin 4, win0_4.index t a * S1x56x56x256.size a ≤ (i a).val
      ∧ (i a).val < win0_4.index t a * S1x56x56x256.size a + S1x56x56x256.size a := by
  show i ∈ ((View.whole main_v4).slice (win0_4.rect t)).set ↔ _
  rw [View.set_slice_whole, Rect.mem_set_unit]
  exact Iff.rfl

/-- Every index of the output lies in the block of the point that visits its sample. -/
theorem cover (i : S64x56x56x256.Idx) :
    ∃ t : Fin cfg0.N, (cfg0.win 4).flush t = true ∧ i ∈ ((cfg0.win 4).blk t).view.set := by
  have hN : cfg0.N = 64 := N_0
  have h0 : (i 0).val < 64 := (i 0).isLt
  have h1 : (i 1).val < 56 := (i 1).isLt
  have h2 : (i 2).val < 56 := (i 2).isLt
  have h3 : (i 3).val < 256 := (i 3).isLt
  obtain ⟨t, ht⟩ : ∃ t : Fin cfg0.N, t.val = (i 0).val := ⟨⟨(i 0).val, by omega⟩, rfl⟩
  refine ⟨t, flush0_4 t, ?_⟩
  rw [mem_blk]
  obtain ⟨-, -, -, -, e4, e5, e6, e7, -⟩ := idx_facts t
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 56 ≤ (i 1).val ∧ (i 1).val < win0_4.index t (1 : Fin 4) * 56 + 56; omega
  | ⟨2, _⟩ => show win0_4.index t (2 : Fin 4) * 56 ≤ (i 2).val ∧ (i 2).val < win0_4.index t (2 : Fin 4) * 56 + 56; omega
  | ⟨3, _⟩ => show win0_4.index t (3 : Fin 4) * 256 ≤ (i 3).val ∧ (i 3).val < win0_4.index t (3 : Fin 4) * 256 + 256; omega

/-- The output array after the region. -/
theorem final (c : Dev nD) : (dats m 0 c).arrAt 4 cfg0.N = regionOut m c :=
  (dats m 0 c).arrAt_eq_of_cover 4 (regionOut m c) (fun t _ => flushed_eq m c t) cover

end Cert.KernelIdeal.ArrayValue

end
-- ==== Proof.KernelRun.lean ====
/-
  The kernel's run, with its result named.

  Before the region the program transposes the argument batch to channels last and re-lays each parameter vector as
  one row; after it, it transposes the region's output back to channels second. Read at an index, the channels-last
  batch at (n, h, w, c) is the argument at (n, c, h, w), a row at (0, c) is the vector at c, and the result at
  (n, c, h, w) is the region's output at (n, h, w, c). So the result is the argument times the gate of each entry's
  sample and channel, the gate computed from the argument's own planes.
-/
import proofs.«121666_g25056839205320_feedfinal_431_6_alg».proof.Proof.ArrayValue

noncomputable section

open Idealize.ShloMosaic Idealize.ShloMosaic.TcCoe Idealize.SL.Sem
open Idealize.ShloMosaic.Pipeline (Dat)

namespace Cert.KernelIdeal.KernelRun

open Cert.KernelIdeal Cert.KernelIdeal.Gen Cert.KernelIdeal.BlockGate Cert.KernelIdeal.ArrayValue
open Idealize.ShloMosaic.ValueIdx Cert.Gct

variable (m : (ℓ : Loc nD τ sig) → Buf (Elt Ideal) ℓ) (ρ : Dev nD → PrngReg)

/-- The argument batch and the three parameter vectors, as launched. -/
abbrev X (c : Dev nD) : S64x256x56x56.Idx → EReal := m ((c.tc : Thread nD τ).loc main_arg0)
abbrev Al (c : Dev nD) : S256.Idx → EReal := m ((c.tc : Thread nD τ).loc main_arg1)
abbrev Ga (c : Dev nD) : S256.Idx → EReal := m ((c.tc : Thread nD τ).loc main_arg2)
abbrev Be (c : Dev nD) : S256.Idx → EReal := m ((c.tc : Thread nD τ).loc main_arg3)

/-- The kernel's result: every entry of the argument times the gate of its sample and channel. -/
def result (c : Dev nD) : S64x256x56x56.Idx → EReal := fun i =>
  X m c i * gate (fun ch h w => X m c (ix4 (i 0) ch h w)) (fun ch => Al m c (ix1 ch)) (fun ch => Ga m c (ix1 ch))
    (fun ch => Be m c (ix1 ch)) (i 1)

/-! ## The host lines before the region -/

/-- The channels-last batch at (n, h, w, c) is the argument at (n, c, h, w). -/
theorem xT_at (c : Dev nD) (n : Fin 64) (h w : Fin 56) (ch : Fin 256) :
    xT m c (ix4 n h w ch) = X m c (ix4 n ch h w) := by
  have e : (V m c main_v0 : S64x56x56x256.Idx → EReal)
      = transpose S64x56x56x256 [0, 2, 3, 1] (X m c) transposes_S64x256x56x56_S64x56x56x256_0_2_3_1 := by
    show StableHlo.after hostOps0 (fun b => m (c, b)) (Proc.devRef .tc main_v0) = _
    after_results
  show (V m c main_v0 : S64x56x56x256.Idx → EReal) (ix4 n h w ch) = _
  rw [e]
  exact transpose_apply _ _ _ (ix4 n h w ch) (ix4 n ch h w) (fun b => by
    match b with
    | ⟨0, _⟩ => rfl
    | ⟨1, _⟩ => rfl
    | ⟨2, _⟩ => rfl
    | ⟨3, _⟩ => rfl)

/-- A vector re-laid as one row reads the vector. -/
theorem row_of_vec (v : S256.Idx → EReal) (ch : Fin 256) :
    shapeCast S1x256 v shapeCasts_S256_S1x256 (ix2 0 ch) = v (ix1 ch) :=
  shapeCast_apply v shapeCasts_S256_S1x256 (ix2 0 ch) (ix1 ch) (by
    rw [Shape.rowMajor_val_one, Shape.rowMajor_val_two]
    show ch.val = 0 * 256 + ch.val
    omega)

theorem aRow_at (c : Dev nD) (ch : Fin 256) : aRow m c (ix2 0 ch) = Al m c (ix1 ch) := by
  have e : (V m c main_v1 : S1x256.Idx → EReal) = shapeCast S1x256 (Al m c) shapeCasts_S256_S1x256 := by
    show StableHlo.after hostOps0 (fun b => m (c, b)) (Proc.devRef .tc main_v1) = _
    after_results
    rfl
  show (V m c main_v1 : S1x256.Idx → EReal) (ix2 0 ch) = _
  rw [e]
  exact row_of_vec _ ch

theorem gRow_at (c : Dev nD) (ch : Fin 256) : gRow m c (ix2 0 ch) = Ga m c (ix1 ch) := by
  have e : (V m c main_v2 : S1x256.Idx → EReal) = shapeCast S1x256 (Ga m c) shapeCasts_S256_S1x256 := by
    show StableHlo.after hostOps0 (fun b => m (c, b)) (Proc.devRef .tc main_v2) = _
    after_results
    rfl
  show (V m c main_v2 : S1x256.Idx → EReal) (ix2 0 ch) = _
  rw [e]
  exact row_of_vec _ ch

theorem bRow_at (c : Dev nD) (ch : Fin 256) : bRow m c (ix2 0 ch) = Be m c (ix1 ch) := by
  have e : (V m c main_v3 : S1x256.Idx → EReal) = shapeCast S1x256 (Be m c) shapeCasts_S256_S1x256 := by
    show StableHlo.after hostOps0 (fun b => m (c, b)) (Proc.devRef .tc main_v3) = _
    after_results
    rfl
  show (V m c main_v3 : S1x256.Idx → EReal) (ix2 0 ch) = _
  rw [e]
  exact row_of_vec _ ch

/-- The region's output at (n, h, w, c) is the result at (n, c, h, w). -/
theorem regionOut_at (c : Dev nD) (n : Fin 64) (h w : Fin 56) (ch : Fin 256) :
    regionOut m c (ix4 n h w ch) = result m c (ix4 n ch h w) := by
  have e0 : (fun ch h w => xT m c (ix4 n h w ch)) = fun ch h w => X m c (ix4 n ch h w) :=
    funext fun ch => funext fun h => funext fun w => xT_at m c n h w ch
  have e1 : rowPar (aRow m c) = fun ch => Al m c (ix1 ch) := funext fun ch => aRow_at m c ch
  have e2 : rowPar (gRow m c) = fun ch => Ga m c (ix1 ch) := funext fun ch => gRow_at m c ch
  have e3 : rowPar (bRow m c) = fun ch => Be m c (ix1 ch) := funext fun ch => bRow_at m c ch
  show xT m c (ix4 n h w ch) * gate (fun ch h w => xT m c (ix4 n h w ch)) (rowPar (aRow m c)) (rowPar (gRow m c))
      (rowPar (bRow m c)) ch = _
  rw [e0, e1, e2, e3, xT_at]
  rfl

/-! ## The host line after the region -/

/-- The program's result buffer after the closing transpose. -/
theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  have hw := (Pipeline.withArrays_arr spec0 launch0.win.arr_inj c (V0 m c) (fun w => (dats m 0 c).arrAt w cfg0.N) 4).trans (final m c)
  funext i
  obtain ⟨n, ch, h, w, rfl⟩ : ∃ (n : Fin 64) (ch : Fin 256) (h w : Fin 56), i = ix4 n ch h w :=
    ⟨i 0, i 1, i 2, i 3, eq_ix4 i⟩
  refine (transpose_apply _ _ _ (ix4 n ch h w) (ix4 n h w ch) (fun b => by
    match b with
    | ⟨0, _⟩ => rfl
    | ⟨1, _⟩ => rfl
    | ⟨2, _⟩ => rfl
    | ⟨3, _⟩ => rfl)).trans ?_
  exact (congrFun hw (ix4 n h w ch)).trans (regionOut_at m c n h w ch)

/-! ## The run -/

/-- Every weakly fair execution of the kernel's program ends with the result buffer at `result` and the arguments
    unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelRun

end
-- ==== Proof.lean ====
/-
  A gated channel transformation, fused into one pass, against its plain reference: equal over the extended reals.

  Both programs take a batch x of 64 samples, 256 channels, 56 x 56 entries a channel, and per-channel vectors alpha,
  gamma, beta. For a sample, channel c's embedding is sqrt (sum of the squares of plane c + eps) * alpha c; the
  sample's scale is rsqrt (the mean over channels of the squared embeddings + eps); the gate of c is
  1 + tanh (embedding * gamma c * scale + beta c); the result is x times the gate of each entry's sample and channel.
  The kernel transposes the batch to channels last, visits one sample per grid point, and transposes back; the
  reference works on the whole channels-second batch at once. The literals (eps, 256, 1) are the same words on both
  sides and the mean is a division by the word of 256 on both, so the two results are the same function of the
  arguments term by term: what differs is only the layout and the order in which a plane's squares are summed,
  and a finite sum of extended reals does not depend on its order. No finiteness of the inputs is used.

  The three frames: the kernel's two are its generated frame; the reference's is its generated run with the result
  dropped. The idealization rewrote nothing, so there is nothing to preserve.
-/
import proofs.«121666_g25056839205320_feedfinal_431_6_alg».proof.Defs
import proofs.«121666_g25056839205320_feedfinal_431_6_alg».proof.Proof.Gen.Kernel
import proofs.«121666_g25056839205320_feedfinal_431_6_alg».proof.Proof.Gen.Kernel.Skeleton
import proofs.«121666_g25056839205320_feedfinal_431_6_alg».proof.Proof.Gen.Kernel.Launch
import proofs.«121666_g25056839205320_feedfinal_431_6_alg».proof.Proof.Gen.Kernel.Points
import proofs.«121666_g25056839205320_feedfinal_431_6_alg».proof.Proof.Gen.Kernel.Frame
import proofs.«121666_g25056839205320_feedfinal_431_6_alg».proof.Proof.Gen.KernelIdeal
import proofs.«121666_g25056839205320_feedfinal_431_6_alg».proof.Proof.Gen.KernelIdeal.Skeleton
import proofs.«121666_g25056839205320_feedfinal_431_6_alg».proof.Proof.Gen.KernelIdeal.Launch
import proofs.«121666_g25056839205320_feedfinal_431_6_alg».proof.Proof.Gen.KernelIdeal.Points
import proofs.«121666_g25056839205320_feedfinal_431_6_alg».proof.Proof.Gen.KernelIdeal.Frame
import proofs.«121666_g25056839205320_feedfinal_431_6_alg».proof.Proof.Gen.ReferenceIdeal
import proofs.«121666_g25056839205320_feedfinal_431_6_alg».proof.Proof.Gen.ReferenceIdeal.Run
import proofs.«121666_g25056839205320_feedfinal_431_6_alg».proof.Proof.Gen.ReferenceIdeal.Read
import proofs.«121666_g25056839205320_feedfinal_431_6_alg».proof.Proof.Gen.Pre_finite_inputs
import proofs.«121666_g25056839205320_feedfinal_431_6_alg».proof.Proof.RefValue
import proofs.«121666_g25056839205320_feedfinal_431_6_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, the kernel's program ends with its result buffer at the argument
    times the gates, and the reference ends with its result at its composed term of the same arguments, which read
    stage by stage is that same function. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v29_eq _ _ _ _).trans (Cert.ReferenceIdeal.RefValue.result_eq _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
